-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x7 : Shape := ⟨2, ![256, 7]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_

variable [Facts]

def fn {F : FTy → Type} [FloatOps F] (main_arg0 : FVec F S32x256x56x56 .f32) (main_arg1 : FVec F S256x7 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x7 .f32 := Host.absf main_arg1
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  main_v8
-- ==== Kernel.lean ====
abbrev S32x256x56x56 : Shape := ⟨4, ![32, 256, 56, 56]⟩
abbrev S256x7 : Shape := ⟨2, ![256, 7]⟩
abbrev S256x6 : Shape := ⟨2, ![256, 6]⟩
abbrev S6x256 : Shape := ⟨2, ![6, 256]⟩
abbrev S6x256x1x1 : Shape := ⟨4, ![6, 256, 1, 1]⟩
abbrev S1x128x56x56 : Shape := ⟨4, ![1, 128, 56, 56]⟩
abbrev S6x128x1x1 : Shape := ⟨4, ![6, 128, 1, 1]⟩
abbrev S128x56x56 : Shape := ⟨3, ![128, 56, 56]⟩
abbrev S1x128x1x1 : Shape := ⟨4, ![1, 128, 1, 1]⟩
abbrev S128x1x1 : Shape := ⟨3, ![128, 1, 1]⟩

abbrev nBuf : Space → Nat
  | .hbm => 11
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S256x6, .f32⟩
  | .hbm, ⟨3, _⟩ => ⟨S256x6, .f32⟩
  | .hbm, ⟨4, _⟩ => ⟨S256x6, .f32⟩
  | .hbm, ⟨5, _⟩ => ⟨S256x6, .f32⟩
  | .hbm, ⟨6, _⟩ => ⟨S6x256, .f32⟩
  | .hbm, ⟨7, _⟩ => ⟨S6x256x1x1, .f32⟩
  | .hbm, ⟨8, _⟩ => ⟨S6x256, .f32⟩
  | .hbm, ⟨9, _⟩ => ⟨S6x256x1x1, .f32⟩
  | .hbm, ⟨10, _⟩ => ⟨S32x256x56x56, .f32⟩
  | .local _ .vmem, ⟨0, _⟩ => ⟨S1x128x56x56, .f32⟩
  | .local _ .vmem, ⟨1, _⟩ => ⟨S1x128x56x56, .f32⟩
  | .local _ .vmem, ⟨2, _⟩ => ⟨S6x128x1x1, .f32⟩
  | .local _ .vmem, ⟨3, _⟩ => ⟨S6x128x1x1, .f32⟩
  | .local _ .vmem, ⟨4, _⟩ => ⟨S6x128x1x1, .f32⟩
  | .local _ .vmem, ⟨5, _⟩ => ⟨S6x128x1x1, .f32⟩
  | .local _ .vmem, ⟨6, _⟩ => ⟨S1x128x56x56, .f32⟩
  | .local _ .vmem, ⟨7, _⟩ => ⟨S1x128x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6x128x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S256x7_S256x6_0_0 : S256x7.Slices ![0, 0] S256x6
  slices_S256x7_S256x6_0_1 : S256x7.Slices ![0, 1] S256x6
  transposes_S256x6_S6x256_1_0 : S256x6.Transposes [1, 0] S6x256
  shapeCasts_S6x256_S6x256x1x1 : S6x256.ShapeCasts S6x256x1x1
  inb_S1x128x56x56_S1x128x56x56_0_0_0_0 : ∀ a, (![0, 0, 0, 0] : Fin 4 → Nat) a + S1x128x56x56.size a ≤ S1x128x56x56.size a
  h_S1x128x56x56 : 0 < S1x128x56x56.numel
  shapeCasts_S1x128x56x56_S128x56x56 : S1x128x56x56.ShapeCasts S128x56x56
  inb_S6x128x1x1_S1x128x1x1_0_0_0_0 : ∀ a, (![0, 0, 0, 0] : Fin 4 → Nat) a + S1x128x1x1.size a ≤ S6x128x1x1.size a
  h_S1x128x1x1 : 0 < S1x128x1x1.numel
  shapeCasts_S1x128x1x1_S128x1x1 : S1x128x1x1.ShapeCasts S128x1x1
  shapeCasts_S128x1x1_S128x1x1 : S128x1x1.ShapeCasts S128x1x1
  broadcasts_S128x1x1_S128x56x56 : S128x1x1.Broadcasts S128x56x56
  inb_S6x128x1x1_S1x128x1x1_1_0_0_0 : ∀ a, (![1, 0, 0, 0] : Fin 4 → Nat) a + S1x128x1x1.size a ≤ S6x128x1x1.size a
  inb_S6x128x1x1_S1x128x1x1_2_0_0_0 : ∀ a, (![2, 0, 0, 0] : Fin 4 → Nat) a + S1x128x1x1.size a ≤ S6x128x1x1.size a
  inb_S6x128x1x1_S1x128x1x1_3_0_0_0 : ∀ a, (![3, 0, 0, 0] : Fin 4 → Nat) a + S1x128x1x1.size a ≤ S6x128x1x1.size a
  inb_S6x128x1x1_S1x128x1x1_4_0_0_0 : ∀ a, (![4, 0, 0, 0] : Fin 4 → Nat) a + S1x128x1x1.size a ≤ S6x128x1x1.size a
  inb_S6x128x1x1_S1x128x1x1_5_0_0_0 : ∀ a, (![5, 0, 0, 0] : Fin 4 → Nat) a + S1x128x1x1.size a ≤ S6x128x1x1.size a
  shapeCasts_S128x56x56_S1x128x56x56 : S128x56x56.ShapeCasts S1x128x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x56x56.size a ≤ S32x256x56x56.size a
  hwx0_0 : ∀ i : grid0.Coords, EltTy.bits .f32 = 32 ∨ (Rect.block (s := S32x256x56x56) S1x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x128x1x1.size a ≤ S6x256x1x1.size a
  hwx0_1 : ∀ i : grid0.Coords, EltTy.bits .f32 = 32 ∨ (Rect.block (s := S6x256x1x1) S6x128x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x128x1x1.size a ≤ S6x256x1x1.size a
  hwx0_2 : ∀ i : grid0.Coords, EltTy.bits .f32 = 32 ∨ (Rect.block (s := S6x256x1x1) S6x128x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x56x56.size a ≤ S32x256x56x56.size a
  hwx0_3 : ∀ i : grid0.Coords, EltTy.bits .f32 = 32 ∨ (Rect.block (s := S32x256x56x56) S1x128x56x56.size (cc0_transform_3 i) (hinb0_3 i)).WholeWords (EltTy.packing .f32)

variable [Facts₀]

abbrev win0_0 : Pipeline.Window sig grid0 :=
  Pipeline.Window.ofSpec (Memref.whole main_arg0) S1x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6x128x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S6x128x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x7 : Shape := ⟨2, ![256, 7]⟩
abbrev S_ : Shape := ⟨0, ![]⟩
abbrev S256 : Shape := ⟨1, ![256]⟩
abbrev S1x256x1x1 : Shape := ⟨4, ![1, 256, 1, 1]⟩
abbrev S256x6 : Shape := ⟨2, ![256, 6]⟩
abbrev S1536 : Shape := ⟨1, ![1536]⟩
abbrev S32x256x56x56x1 : Shape := ⟨5, ![32, 256, 56, 56, 1]⟩
abbrev S1 : Shape := ⟨1, ![1]⟩
abbrev S1x1x1x1x1 : Shape := ⟨5, ![1, 1, 1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S_, .f32⟩
  | .hbm, ⟨3, _⟩ => ⟨S32x256x56x56, .f32⟩
  | .hbm, ⟨4, _⟩ => ⟨S32x256x56x56, .f32⟩
  | .hbm, ⟨5, _⟩ => ⟨S_, .f32⟩
  | .hbm, ⟨6, _⟩ => ⟨S32x256x56x56, .f32⟩
  | .hbm, ⟨7, _⟩ => ⟨S32x256x56x56, .f32⟩
  | .hbm, ⟨8, _⟩ => ⟨S_, .f32⟩
  | .hbm, ⟨9, _⟩ => ⟨S_, .i32⟩
  | .hbm, ⟨10, _⟩ => ⟨S_, .f32⟩
  | .hbm, ⟨11, _⟩ => ⟨S32x256x56x56, .f32⟩
  | .hbm, ⟨12, _⟩ => ⟨S32x256x56x56, .f32⟩
  | .hbm, ⟨13, _⟩ => ⟨S_, .f32⟩
  | .hbm, ⟨14, _⟩ => ⟨S32x256x56x56, .f32⟩
  | .hbm, ⟨15, _⟩ => ⟨S32x256x56x56, .f32⟩
  | .hbm, ⟨16, _⟩ => ⟨S32x256x56x56, .i32⟩
  | .hbm, ⟨17, _⟩ => ⟨S32x256x56x56, .f32⟩
  | .hbm, ⟨18, _⟩ => ⟨S32x256x56x56, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S1x256x1x1, .i32⟩
  | .hbm, ⟨24, _⟩ => ⟨S32x256x56x56, .i32⟩
  | .hbm, ⟨25, _⟩ => ⟨S32x256x56x56, .i32⟩
  | .hbm, ⟨26, _⟩ => ⟨S256x6, .f32⟩
  | .hbm, ⟨27, _⟩ => ⟨S1536, .f32⟩
  | .hbm, ⟨28, _⟩ => ⟨S256x6, .f32⟩
  | .hbm, ⟨29, _⟩ => ⟨S256x6, .f32⟩
  | .hbm, ⟨30, _⟩ => ⟨S256x6, .f32⟩
  | .hbm, ⟨31, _⟩ => ⟨S1536, .f32⟩
  | .hbm, ⟨32, _⟩ => ⟨S_, .i32⟩
  | .hbm, ⟨33, _⟩ => ⟨S32x256x56x56, .i32⟩
  | .hbm, ⟨34, _⟩ => ⟨S32x256x56x56, .i1⟩
  | .hbm, ⟨35, _⟩ => ⟨S_, .i32⟩
  | .hbm, ⟨36, _⟩ => ⟨S32x256x56x56, .i32⟩
  | .hbm, ⟨37, _⟩ => ⟨S32x256x56x56, .i32⟩
  | .hbm, ⟨38, _⟩ => ⟨S32x256x56x56, .i32⟩
  | .hbm, ⟨39, _⟩ => ⟨S32x256x56x56x1, .i32⟩
  | .hbm, ⟨40, _⟩ => ⟨S1, .i32⟩
  | .hbm, ⟨41, _⟩ => ⟨S_, .i32⟩
  | .hbm, ⟨42, _⟩ => ⟨S32x256x56x56x1, .i32⟩
  | .hbm, ⟨43, _⟩ => ⟨S32x256x56x56x1, .i1⟩
  | .hbm, ⟨44, _⟩ => ⟨S1x1x1x1x1, .i32⟩
  | .hbm, ⟨45, _⟩ => ⟨S32x256x56x56x1, .i32⟩
  | .hbm, ⟨46, _⟩ => ⟨S32x256x56x56x1, .i1⟩
  | .hbm, ⟨47, _⟩ => ⟨S32x256x56x56x1, .i1⟩
  | .hbm, ⟨48, _⟩ => ⟨S_, .i1⟩
  | .hbm, ⟨49, _⟩ => ⟨S32x256x56x56, .i1⟩
  | .hbm, ⟨50, _⟩ => ⟨S32x256x56x56, .f32⟩
  | .hbm, ⟨51, _⟩ => ⟨S_, .f32⟩
  | .hbm, ⟨52, _⟩ => ⟨S32x256x56x56, .f32⟩
  | .hbm, ⟨53, _⟩ => ⟨S32x256x56x56, .f32⟩
  | .hbm, ⟨54, _⟩ => ⟨S_, .i32⟩
  | .hbm, ⟨55, _⟩ => ⟨S32x256x56x56, .i32⟩
  | .hbm, ⟨56, _⟩ => ⟨S32x256x56x56, .i1⟩
  | .hbm, ⟨57, _⟩ => ⟨S_, .i32⟩
  | .hbm, ⟨58, _⟩ => ⟨S32x256x56x56, .i32⟩
  | .hbm, ⟨59, _⟩ => ⟨S32x256x56x56, .i32⟩
  | .hbm, ⟨60, _⟩ => ⟨S32x256x56x56, .i32⟩
  | .hbm, ⟨61, _⟩ => ⟨S32x256x56x56x1, .i32⟩
  | .hbm, ⟨62, _⟩ => ⟨S1, .i32⟩
  | .hbm, ⟨63, _⟩ => ⟨S_, .i32⟩
  | .hbm, ⟨64, _⟩ => ⟨S32x256x56x56x1, .i32⟩
  | .hbm, ⟨65, _⟩ => ⟨S32x256x56x56x1, .i1⟩
  | .hbm, ⟨66, _⟩ => ⟨S1x1x1x1x1, .i32⟩
  | .hbm, ⟨67, _⟩ => ⟨S32x256x56x56x1, .i32⟩
  | .hbm, ⟨68, _⟩ => ⟨S32x256x56x56x1, .i1⟩
  | .hbm, ⟨69, _⟩ => ⟨S32x256x56x56x1, .i1⟩
  | .hbm, ⟨70, _⟩ => ⟨S_, .i1⟩
  | .hbm, ⟨71, _⟩ => ⟨S32x256x56x56, .i1⟩
  | .hbm, ⟨72, _⟩ => ⟨S32x256x56x56, .f32⟩
  | .hbm, ⟨73, _⟩ => ⟨S_, .f32⟩
  | .hbm, ⟨74, _⟩ => ⟨S32x256x56x56, .f32⟩
  | .hbm, ⟨75, _⟩ => ⟨S32x256x56x56, .f32⟩
  | .hbm, ⟨76, _⟩ => ⟨S32x256x56x56, .f32⟩
  | .hbm, ⟨77, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v20 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩

abbrev nD : Nat := 1
abbrev τ : Topo := Topo.v7x

variable {F : FTy → Type} [FloatOps F]

class Facts₀ : Prop where
  bcast_S_S32x256x56x56 : S_.BroadcastsInDim S32x256x56x56 (![] : Fin 0 → Fin S32x256x56x56.rank)
  bcast_S_S256 : S_.BroadcastsInDim S256 (![] : Fin 0 → Fin S256.rank)
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)
  slices_S256x7_S256x6_0_0 : S256x7.Slices ![0, 0] S256x6
  shapeCasts_S256x6_S1536 : S256x6.ShapeCasts S1536
  slices_S256x7_S256x6_0_1 : S256x7.Slices ![0, 1] S256x6
  bcast_S32x256x56x56_S32x256x56x56x1_0_1_2_3 : S32x256x56x56.BroadcastsInDim S32x256x56x56x1 (![0, 1, 2, 3] : Fin 4 → Fin S32x256x56x56x1.rank)
  bcast_S_S32x256x56x56x1 : S_.BroadcastsInDim S32x256x56x56x1 (![] : Fin 0 → Fin S32x256x56x56x1.rank)
  bcast_S1_S1x1x1x1x1_4 : S1.BroadcastsInDim S1x1x1x1x1 (![4] : Fin 1 → Fin S1x1x1x1x1.rank)
  bcast_S1x1x1x1x1_S32x256x56x56x1_0_1_2_3_4 : S1x1x1x1x1.BroadcastsInDim S32x256x56x56x1 (![0, 1, 2, 3, 4] : Fin 5 → Fin S32x256x56x56x1.rank)
  reducesTo_S32x256x56x56x1_S32x256x56x56_d4 : S32x256x56x56x1.ReducesTo [4] S32x256x56x56
  h_S_ : 0 < S_.numel
  gather_S1536_S32x256x56x56x1_S32x256x56x56_n_0_n_n_0_4_1_wf : GatherDims.WF S1536 S32x256x56x56x1 S32x256x56x56 [] [0] [] [0] [] 4 ![1]

variable [Facts₀]

def gather_S1536_S32x256x56x56x1_S32x256x56x56_n_0_n_n_0_4_1 : GatherDims S1536 S32x256x56x56x1 S32x256x56x56 where
  offsetDims := []
  collapsedSliceDims := [0]
  operandBatchingDims := []
  startIndicesBatchingDims := []
  startIndexMap := [0]
  indexVectorDim := 4
  sliceSizes := ![1]
  wf := gather_S1536_S32x256x56x56x1_S32x256x56x56_n_0_n_n_0_4_1_wf

class Facts : Prop extends Facts₀ where

variable [Facts]
-- ==== Proof.Spec.lean ====
/-
  The function both programs compute, one element at a time.

  For an input element `a` and the seven break-point values `p 0 … p 6` of its channel, put
  `u = (a + 2.7) / 0.9` (both literals the f32 words the programs spell), clamp `u` into `[0, 5]` and
  truncate: the region `r ∈ {0, …, 5}`. The result is `p r + (u - r) · (p (r + 1) - p r)`: the line through
  the two break points of region `r`, read at the offset of `u` inside the region.

  The kernel picks `p r` and `p (r + 1) - p r` by a chain of six selections on `r = 5, 4, …, 0` (ending in
  a zero that is never reached); the reference reads them out of the flattened tables at position
  `6 · channel + r`. Stated here: the scalar formula with the selection chain (`pwlu`), the whole-array
  function `G` of the two argument arrays, and — at the extended reals — that the region is one of
  `0, …, 5` whatever the input (the clamp lands in `[0, 5]`, also from an infinite input), so the chain
  at region `k` is entry `k`.
-/
import Idealize.ShloMosaic.PureOps.Ideal
import Idealize.ShloMosaic.PureOps.Ideal.Laws
import Idealize.ShloMosaic.Lib.ValueIdx

noncomputable section

namespace Cert.Pwlu

open Idealize.ShloMosaic Idealize.ShloMosaic.ValueIdx

variable {F : FTy → Type} [FloatOps F]

/-- The input array's shape and the break-point table's. -/
abbrev SX : Shape := ⟨4, ![32, 256, 56, 56]⟩
abbrev SP : Shape := ⟨2, ![256, 7]⟩

/-- `u = (a + 2.7) / 0.9`. -/
def xnorm (a : F .f32) : F .f32 :=
  FloatOps.divf (FloatOps.addf a (Scalar.ofBits .f32 0x402CCCCD#32)) (Scalar.ofBits .f32 0x3F666666#32)

/-- The region: `u` clamped into `[0, 5]`, truncated to an integer word. -/
def region (a : F .f32) : BitVec 32 :=
  FloatOps.fptosi 32 (FloatOps.minimumf (Scalar.ofBits .f32 0x40A00000#32)
    (FloatOps.maximumf (Scalar.ofBits .f32 0x00000000#32) (xnorm a)))

/-- Entry `r` of six values by a chain of selections, the last test outermost; zero if `r` is none of `0 … 5`. -/
def pick (r : BitVec 32) (v : Fin 6 → F .f32) : F .f32 :=
  Scalar.select (IntOp.cmpi .eq r 5#32) (v 5)
  (Scalar.select (IntOp.cmpi .eq r 4#32) (v 4)
  (Scalar.select (IntOp.cmpi .eq r 3#32) (v 3)
  (Scalar.select (IntOp.cmpi .eq r 2#32) (v 2)
  (Scalar.select (IntOp.cmpi .eq r 1#32) (v 1)
  (Scalar.select (IntOp.cmpi .eq r 0#32) (v 0) (Scalar.ofBits .f32 0x00000000#32))))))

/-- The piecewise-linear value at `a`: left break point of the region plus the offset inside it times the
    region's rise; `l` the six left break points, `d` the six rises. -/
def pwlu (a : F .f32) (l d : Fin 6 → F .f32) : F .f32 :=
  FloatOps.addf (pick (region a) l)
    (FloatOps.mulf (FloatOps.subf (xnorm a) (FloatOps.sitofp .f32 (region a))) (pick (region a) d))

/-- Channel `c`'s six left break points `p c 0 … p c 5`, -/
def lrow (p : FVec F SP .f32) (c : Fin 256) : Fin 6 → F .f32 :=
  fun k => p (ix2 c ⟨k.val, by omega⟩)

/-- and its six rises `p c (k + 1) - p c k`. -/
def drow (p : FVec F SP .f32) (c : Fin 256) : Fin 6 → F .f32 :=
  fun k => FloatOps.subf (p (ix2 c ⟨k.val + 1, by omega⟩)) (p (ix2 c ⟨k.val, by omega⟩))

/-- THE RESULT ARRAY as one function of the argument arrays: element `(b, c, h, w)` is the piecewise-linear
    value of `x (b, c, h, w)` over channel `c`'s break points. -/
def G (x : FVec F SX .f32) (p : FVec F SP .f32) : FVec F SX .f32 :=
  fun i => pwlu (x i) (lrow p ⟨(i 1).val, (i 1).isLt⟩) (drow p ⟨(i 1).val, (i 1).isLt⟩)

/-! ## The selection chain at a region in range -/

theorem pick_ofNat (k : Fin 6) (v : Fin 6 → F .f32) : pick (BitVec.ofNat 32 k.val) v = v k := by
  match k with
  | ⟨0, _⟩ => rfl
  | ⟨1, _⟩ => rfl
  | ⟨2, _⟩ => rfl
  | ⟨3, _⟩ => rfl
  | ⟨4, _⟩ => rfl
  | ⟨5, _⟩ => rfl

/-! ## At the extended reals the region is one of 0 … 5 -/

/-- The word `0x40A00000` denotes the real 5. -/
theorem ofBits_five : Ideal.ofBits .f32 0x40A00000#32 = ((5 : ℝ) : EReal) := by
  simp [Ideal.ofBits, Ideal.ieee, -EReal.coe_mul]; norm_num

/-- An extended real between 0 and 5 truncates to one of the words `0 … 5`. -/
theorem fptosi_mem (y : EReal) (h0 : 0 ≤ y) (h5 : y ≤ ((5 : ℝ) : EReal)) :
    ∃ k : Fin 6, Ideal.fptosi 32 y = BitVec.ofNat 32 k.val := by
  induction y using EReal.rec with
  | bot => exact absurd h0 (by simp)
  | top => exact absurd h5 (by simp)
  | coe r =>
    have hr0 : (0 : ℝ) ≤ r := by exact_mod_cast h0
    have hr5 : r ≤ 5 := by exact_mod_cast h5
    have hf0 : 0 ≤ ⌊r⌋ := Int.floor_nonneg.mpr hr0
    have hf5 : ⌊r⌋ ≤ 5 := by
      have : ⌊r⌋ ≤ ⌊(5 : ℝ)⌋ := Int.floor_le_floor hr5
      simpa using this
    refine ⟨⟨⌊r⌋.toNat, by omega⟩, ?_⟩
    unfold Ideal.fptosi
    rw [Ideal.toIntClamped_coe, if_pos hr0]
    have e : max (-((2 ^ (32 - 1) : ℕ) : ℤ)) (min (((2 ^ (32 - 1) : ℕ) : ℤ) - 1) ⌊r⌋) = ((⌊r⌋.toNat : ℕ) : ℤ) := by
      have : ((2 ^ (32 - 1) : ℕ) : ℤ) = 2147483648 := by norm_num
      rw [this]; omega
    rw [e]
    exact (BitVec.ofInt_natCast 32 ⌊r⌋.toNat)

/-- Whatever the input, the region is one of `0 … 5`: the clamp lands between the literals `0` and `5`. -/
theorem region_mem (a : Ideal .f32) : ∃ k : Fin 6, region (F := Ideal) a = BitVec.ofNat 32 k.val := by
  unfold region
  refine fptosi_mem _ ?_ ?_
  · show (0 : EReal) ≤ min (Ideal.ofBits .f32 0x40A00000#32) (max (Ideal.ofBits .f32 0x00000000#32) (xnorm (F := Ideal) a))
    rw [ofBits_five, Ideal.ofBits_zero_f32]
    exact le_min (by exact_mod_cast (by norm_num : (0 : ℝ) ≤ 5)) (le_max_left _ _)
  · show min (Ideal.ofBits .f32 0x40A00000#32) (max (Ideal.ofBits .f32 0x00000000#32) (xnorm (F := Ideal) a)) ≤ ((5 : ℝ) : EReal)
    rw [ofBits_five]
    exact min_le_left _ _

end Cert.Pwlu

end
-- ==== Proof.KernelValue.lean ====
/-
  The idealized kernel's result array as one function of the two argument arrays.
-/
import proofs.«102609_j84756884619350_1_alg».proof.Proof.KernelIdealValue
import proofs.«102609_j84756884619350_1_alg».proof.Proof.Spec

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The two tables as the region finds them

Before the region the host cuts the break-point table `p : [256, 7]` into its first six columns (the left break
points) and the differences of columns `1 … 6` and `0 … 5` (the rises), transposes each to `[6, 256]` and adds two
unit axes. Read at an index: the first table at `(k, ch, 0, 0)` is `p (ch, k)`, the second `p (ch, k + 1) - p (ch, k)`. -/

/-- The table of left break points: the first six columns, transposed, two unit axes added. -/
theorem tableL_eq (c : Dev nD) : (V m c main_v5 : S6x256x1x1.Idx → Elt F .f32)
    = shapeCast S6x256x1x1 (transpose S6x256 [1, 0]
        (extractStridedSlice S256x6 ![0, 0] (m ((c : Thread nD τ).loc main_arg1)) slices_S256x7_S256x6_0_0)
        transposes_S256x6_S6x256_1_0) shapeCasts_S6x256_S6x256x1x1 := by
  dsimp only [Gen.V, Gen.hostOps0]; after_results; rfl

/-- The table of rises: columns `1 … 6` minus columns `0 … 5`, transposed, two unit axes added. -/
theorem tableD_eq (c : Dev nD) : (V m c main_v7 : S6x256x1x1.Idx → Elt F .f32)
    = shapeCast S6x256x1x1 (transpose S6x256 [1, 0]
        (subf (extractStridedSlice S256x6 ![0, 1] (m ((c : Thread nD τ).loc main_arg1)) slices_S256x7_S256x6_0_1)
          (extractStridedSlice S256x6 ![0, 0] (m ((c : Thread nD τ).loc main_arg1)) slices_S256x7_S256x6_0_0))
        transposes_S256x6_S6x256_1_0) shapeCasts_S6x256_S6x256x1x1 := by
  dsimp only [Gen.V, Gen.hostOps0]; after_results; rfl

/-- A `[6, 256, 1, 1]` array made from a `[256, 6]` one by transposing and adding unit axes, read at `(k, ch, 0, 0)`,
    is the `[256, 6]` array at `(ch, k)`. -/
theorem relay_apply {α : Type} (T : S256x6.Idx → α) (q : S6x256x1x1.Idx) (ch : Fin 256) (k : Fin 6)
    (hq0 : (q 0).val = k.val) (hq1 : (q 1).val = ch.val) :
    shapeCast S6x256x1x1 (transpose S6x256 [1, 0] T transposes_S256x6_S6x256_1_0) shapeCasts_S6x256_S6x256x1x1 q
      = T (ValueIdx.ix2 ch k) := by
  have h2 : (q 2).val < 1 := (q 2).isLt
  have h3 : (q 3).val < 1 := (q 3).isLt
  refine (shapeCast_apply _ _ q (ValueIdx.ix2 k ch)
    (by rw [Shape.rowMajor_val_two, Shape.rowMajor_val_four]
        show k.val * 256 + ch.val = (((q 0).val * 256 + (q 1).val) * 1 + (q 2).val) * 1 + (q 3).val
        omega)).trans ?_
  exact transpose_apply _ _ _ _ (ValueIdx.ix2 ch k) (fun b => match b with | ⟨0, _⟩ => rfl | ⟨1, _⟩ => rfl)

/-- The table of left break points at `(k, ch, 0, 0)` is `p (ch, k)`. -/
theorem tableL_apply (c : Dev nD) (q : S6x256x1x1.Idx) (ch : Fin 256) (k : Fin 6)
    (hq0 : (q 0).val = k.val) (hq1 : (q 1).val = ch.val) :
    (V m c main_v5 : S6x256x1x1.Idx → Elt F .f32) q
      = Cert.Pwlu.lrow (m ((c : Thread nD τ).loc main_arg1)) ch k := by
  rw [tableL_eq]
  refine (relay_apply _ q ch k hq0 hq1).trans ?_
  unfold Cert.Pwlu.lrow
  exact extractStridedSlice_apply _ _ _ (ValueIdx.ix2 ch k) (ValueIdx.ix2 ch ⟨k.val, by omega⟩)
    (fun a => match a with
      | ⟨0, _⟩ => by show ch.val = 0 + ch.val; omega
      | ⟨1, _⟩ => by show k.val = 0 + k.val; omega)

/-- The table of rises at `(k, ch, 0, 0)` is `p (ch, k + 1) - p (ch, k)`. -/
theorem tableD_apply (c : Dev nD) (q : S6x256x1x1.Idx) (ch : Fin 256) (k : Fin 6)
    (hq0 : (q 0).val = k.val) (hq1 : (q 1).val = ch.val) :
    (V m c main_v7 : S6x256x1x1.Idx → Elt F .f32) q
      = Cert.Pwlu.drow (m ((c : Thread nD τ).loc main_arg1)) ch k := by
  rw [tableD_eq]
  refine (relay_apply _ q ch k hq0 hq1).trans ?_
  unfold Cert.Pwlu.drow
  refine congrArg₂ FloatOps.subf ?_ ?_
  · exact extractStridedSlice_apply _ _ _ (ValueIdx.ix2 ch k) (ValueIdx.ix2 ch ⟨k.val + 1, by omega⟩)
      (fun a => match a with
        | ⟨0, _⟩ => by show ch.val = 0 + ch.val; omega
        | ⟨1, _⟩ => by show k.val + 1 = 1 + k.val; omega)
  · exact extractStridedSlice_apply _ _ _ (ValueIdx.ix2 ch k) (ValueIdx.ix2 ch ⟨k.val, by omega⟩)
      (fun a => match a with
        | ⟨0, _⟩ => by show ch.val = 0 + ch.val; omega
        | ⟨1, _⟩ => by show k.val = 0 + k.val; omega)

/-! ## One element of a block

What the body leaves at block index `j`, for any three blocks whose entries under `j` are the input element `a`,
the six left break points `l` and the six rises `d` of its channel: the piecewise-linear value. The input's block
is read at `(0, j 1, j 2, j 3)`; row `k` of a table's block at `(k, j 1, 0, 0)`. -/

theorem out_apply (x0 : Vec F S1x128x56x56 .f32) (x1 x2 : Vec F S6x128x1x1 .f32) (j : S1x128x56x56.Idx)
    (a : F .f32) (l d : Fin 6 → F .f32)
    (h0 : ∀ z : S1x128x56x56.Idx, (z 1).val = (j 1).val → (z 2).val = (j 2).val → (z 3).val = (j 3).val → x0 z = a)
    (h1 : ∀ (k : Fin 6) (z : S6x128x1x1.Idx), (z 0).val = k.val → (z 1).val = (j 1).val → x1 z = l k)
    (h2 : ∀ (k : Fin 6) (z : S6x128x1x1.Idx), (z 0).val = k.val → (z 1).val = (j 1).val → x2 z = d k) :
    out0_3 x0 x1 x2 j = Cert.Pwlu.pwlu a l d := by
  unfold out0_3
  rw [ValueP.canon3_eq]
  -- the load of the input's block, and row `k` of each table's block, at an index with `j`'s coordinates
  have e0 : ∀ z : S1x128x56x56.Idx, (z 1).val = (j 1).val → (z 2).val = (j 2).val → (z 3).val = (j 3).val →
      View.ld x0 r0_0 z = a := fun z q1 q2 q3 =>
    h0 _ (by show 0 + 1 * (z 1).val = (j 1).val; omega) (by show 0 + 1 * (z 2).val = (j 2).val; omega)
      (by show 0 + 1 * (z 3).val = (j 3).val; omega)
  have tl5 : ∀ z : S1x128x1x1.Idx, (z 1).val = (j 1).val → View.ld x1 r0_6 z = l 5 := fun z q1 =>
    h1 5 _ (by have hz : (z 0).val < 1 := (z 0).isLt; show 5 + 1 * (z 0).val = 5; omega)
      (by show 0 + 1 * (z 1).val = (j 1).val; omega)
  have tl4 : ∀ z : S1x128x1x1.Idx, (z 1).val = (j 1).val → View.ld x1 r0_5 z = l 4 := fun z q1 =>
    h1 4 _ (by have hz : (z 0).val < 1 := (z 0).isLt; show 4 + 1 * (z 0).val = 4; omega)
      (by show 0 + 1 * (z 1).val = (j 1).val; omega)
  have tl3 : ∀ z : S1x128x1x1.Idx, (z 1).val = (j 1).val → View.ld x1 r0_4 z = l 3 := fun z q1 =>
    h1 3 _ (by have hz : (z 0).val < 1 := (z 0).isLt; show 3 + 1 * (z 0).val = 3; omega)
      (by show 0 + 1 * (z 1).val = (j 1).val; omega)
  have tl2 : ∀ z : S1x128x1x1.Idx, (z 1).val = (j 1).val → View.ld x1 r0_3 z = l 2 := fun z q1 =>
    h1 2 _ (by have hz : (z 0).val < 1 := (z 0).isLt; show 2 + 1 * (z 0).val = 2; omega)
      (by show 0 + 1 * (z 1).val = (j 1).val; omega)
  have tl1 : ∀ z : S1x128x1x1.Idx, (z 1).val = (j 1).val → View.ld x1 r0_2 z = l 1 := fun z q1 =>
    h1 1 _ (by have hz : (z 0).val < 1 := (z 0).isLt; show 1 + 1 * (z 0).val = 1; omega)
      (by show 0 + 1 * (z 1).val = (j 1).val; omega)
  have tl0 : ∀ z : S1x128x1x1.Idx, (z 1).val = (j 1).val → View.ld x1 r0_1 z = l 0 := fun z q1 =>
    h1 0 _ (by have hz : (z 0).val < 1 := (z 0).isLt; show 0 + 1 * (z 0).val = 0; omega)
      (by show 0 + 1 * (z 1).val = (j 1).val; omega)
  have td5 : ∀ z : S1x128x1x1.Idx, (z 1).val = (j 1).val → View.ld x2 r0_6 z = d 5 := fun z q1 =>
    h2 5 _ (by have hz : (z 0).val < 1 := (z 0).isLt; show 5 + 1 * (z 0).val = 5; omega)
      (by show 0 + 1 * (z 1).val = (j 1).val; omega)
  have td4 : ∀ z : S1x128x1x1.Idx, (z 1).val = (j 1).val → View.ld x2 r0_5 z = d 4 := fun z q1 =>
    h2 4 _ (by have hz : (z 0).val < 1 := (z 0).isLt; show 4 + 1 * (z 0).val = 4; omega)
      (by show 0 + 1 * (z 1).val = (j 1).val; omega)
  have td3 : ∀ z : S1x128x1x1.Idx, (z 1).val = (j 1).val → View.ld x2 r0_4 z = d 3 := fun z q1 =>
    h2 3 _ (by have hz : (z 0).val < 1 := (z 0).isLt; show 3 + 1 * (z 0).val = 3; omega)
      (by show 0 + 1 * (z 1).val = (j 1).val; omega)
  have td2 : ∀ z : S1x128x1x1.Idx, (z 1).val = (j 1).val → View.ld x2 r0_3 z = d 2 := fun z q1 =>
    h2 2 _ (by have hz : (z 0).val < 1 := (z 0).isLt; show 2 + 1 * (z 0).val = 2; omega)
      (by show 0 + 1 * (z 1).val = (j 1).val; omega)
  have td1 : ∀ z : S1x128x1x1.Idx, (z 1).val = (j 1).val → View.ld x2 r0_2 z = d 1 := fun z q1 =>
    h2 1 _ (by have hz : (z 0).val < 1 := (z 0).isLt; show 1 + 1 * (z 0).val = 1; omega)
      (by show 0 + 1 * (z 1).val = (j 1).val; omega)
  have td0 : ∀ z : S1x128x1x1.Idx, (z 1).val = (j 1).val → View.ld x2 r0_1 z = d 0 := fun z q1 =>
    h2 0 _ (by have hz : (z 0).val < 1 := (z 0).isLt; show 0 + 1 * (z 0).val = 0; omega)
      (by show 0 + 1 * (z 1).val = (j 1).val; omega)
  dsimp only [ValueP.E3]
  rw [e0 (ValueP.ix3_0 j) rfl rfl rfl,
    tl5 (ValueP.ix3_1 j) rfl,
    tl4 (ValueP.ix3_3 j) rfl,
    tl3 (ValueP.ix3_5 j) rfl,
    tl2 (ValueP.ix3_7 j) rfl,
    tl1 (ValueP.ix3_9 j) rfl,
    tl0 (ValueP.ix3_11 j) rfl,
    td5 (ValueP.ix3_15 j) rfl,
    td4 (ValueP.ix3_17 j) rfl,
    td3 (ValueP.ix3_19 j) rfl,
    td2 (ValueP.ix3_21 j) rfl,
    td1 (ValueP.ix3_23 j) rfl,
    td0 (ValueP.ix3_25 j) rfl]
  rfl

/-! ## The index maps over the grid

Grid point `(b, cb)` stages block `(b, cb, 0, 0)` of the input and of the result and block `(0, cb, 0, 0)` of each
table; decided once over the 64 points. -/

theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = 0 ∧ win0_1.index t (1 : Fin 4) = win0_3.index t (1 : Fin 4)
    ∧ win0_1.index t (2 : Fin 4) = 0 ∧ win0_1.index t (3 : Fin 4) = 0
    ∧ win0_2.index t (0 : Fin 4) = 0 ∧ win0_2.index t (1 : Fin 4) = win0_3.index t (1 : Fin 4)
    ∧ win0_2.index t (2 : Fin 4) = 0 ∧ win0_2.index t (3 : Fin 4) = 0
    ∧ win0_3.index t (0 : Fin 4) ≤ 31 ∧ win0_3.index t (1 : Fin 4) ≤ 1
    ∧ win0_3.index t (2 : Fin 4) = 0 ∧ win0_3.index t (3 : Fin 4) = 0 :=
  (by decide +kernel : ∀ t : Fin grid0.N, _)

/-- Every block `(b, cb, 0, 0)` of the result is some point's. -/
theorem idx_onto : ∀ (b : Fin 32) (cb : Fin 2), ∃ t : Fin cfg0.N, win0_3.index t = ![b.val, cb.val, 0, 0] :=
  (by decide +kernel : ∀ (b : Fin 32) (cb : Fin 2), ∃ t : Fin grid0.N, win0_3.index t = ![b.val, cb.val, 0, 0])

/-! ## What a point writes back -/

/-- WHAT POINT `t` WRITES BACK is block `t` of `G` of the two argument arrays: an element of a block sits in its array
    at block index × block size + its coordinate inside the block, so under result index `(b, ch, h, w)` the body
    read the input at `(b, ch, h, w)` and the tables at `(k, ch, 0, 0)`. -/
theorem flushed_eq (c : Dev nD) (t : Fin cfg0.N) :
    (dats m 0 c).flushed 3 t = ((cfg0.win 3).blk t).view.read (Elt F)
      (Cert.Pwlu.G (m ((c : Thread nD τ).loc main_arg0)) (m ((c : Thread nD τ).loc main_arg1))) := by
  rw [ValueP.flushed3]
  obtain ⟨a00, a01, a02, a03, a10, a11, a12, a13, a20, a21, a22, a23, a30, a31, a32, a33⟩ := idx_facts t
  refine funext fun (j : S1x128x56x56.Idx) => ?_
  have hj0 : (j 0).val < 1 := (j 0).isLt
  have hj1 : (j 1).val < 128 := (j 1).isLt
  have hj2 : (j 2).val < 56 := (j 2).isLt
  have hj3 : (j 3).val < 56 := (j 3).isLt
  show out0_3 (iblk m c 0 t) (iblk m c 1 t) (iblk m c 2 t) j
    = Cert.Pwlu.G (m ((c : Thread nD τ).loc main_arg0)) (m ((c : Thread nD τ).loc main_arg1))
        (((cfg0.win 3).blk t).view.emb j)
  unfold Cert.Pwlu.G
  refine out_apply _ _ _ j _ _ _ ?_ ?_ ?_
  · intro z q1 q2 q3
    have hz0 : (z 0).val < 1 := (z 0).isLt
    show V m c main_arg0 (((cfg0.win 0).blk t).view.emb z)
      = m ((c : Thread nD τ).loc main_arg0) (((cfg0.win 3).blk t).view.emb j)
    rw [V_main_arg0]
    congr 1
    funext b; apply Fin.ext
    match b with
    | ⟨0, _⟩ => show win0_0.index t (0 : Fin 4) * 1 + 1 * (z 0).val = win0_3.index t (0 : Fin 4) * 1 + 1 * (j 0).val; omega
    | ⟨1, _⟩ => show win0_0.index t (1 : Fin 4) * 128 + 1 * (z 1).val = win0_3.index t (1 : Fin 4) * 128 + 1 * (j 1).val; omega
    | ⟨2, _⟩ => show win0_0.index t (2 : Fin 4) * 56 + 1 * (z 2).val = win0_3.index t (2 : Fin 4) * 56 + 1 * (j 2).val; omega
    | ⟨3, _⟩ => show win0_0.index t (3 : Fin 4) * 56 + 1 * (z 3).val = win0_3.index t (3 : Fin 4) * 56 + 1 * (j 3).val; omega
  · intro k z q0 q1
    show V m c main_v5 (((cfg0.win 1).blk t).view.emb z) = _
    refine tableL_apply m c _ _ k ?_ ?_
    · show win0_1.index t (0 : Fin 4) * 6 + 1 * (z 0).val = k.val; omega
    · show win0_1.index t (1 : Fin 4) * 128 + 1 * (z 1).val = win0_3.index t (1 : Fin 4) * 128 + 1 * (j 1).val; omega
  · intro k z q0 q1
    show V m c main_v7 (((cfg0.win 2).blk t).view.emb z) = _
    refine tableD_apply m c _ _ k ?_ ?_
    · show win0_2.index t (0 : Fin 4) * 6 + 1 * (z 0).val = k.val; omega
    · show win0_2.index t (1 : Fin 4) * 128 + 1 * (z 1).val = win0_3.index t (1 : Fin 4) * 128 + 1 * (j 1).val; omega

/-! ## The blocks tile the result -/

/-- An index of the result is in point `t`'s block iff each coordinate is in the block's range on its axis. -/
theorem mem_blk (t : Fin cfg0.N) (i : S32x256x56x56.Idx) :
    i ∈ ((cfg0.win 3).blk t).view.set ↔ ∀ a : Fin 4, win0_3.index t a * S1x128x56x56.size a ≤ (i a).val
      ∧ (i a).val < win0_3.index t a * S1x128x56x56.size a + S1x128x56x56.size a := by
  show i ∈ ((View.whole main_v8).slice (win0_3.rect t)).set ↔ _
  rw [View.set_slice_whole, Rect.mem_set_unit]
  exact Iff.rfl

/-- Index `(b, ch, h, w)` is in the block of the point whose block index is `(b, ch / 128, 0, 0)`. -/
theorem cover (i : S32x256x56x56.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := idx_onto ⟨(i 0).val, hi0⟩ ⟨(i 1).val / 128, by omega⟩
  have q0 : win0_3.index t (0 : Fin 4) = (i 0).val := congrFun ht 0
  have q1 : win0_3.index t (1 : Fin 4) = (i 1).val / 128 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- THE RESULT ARRAY after the run is `G` of the two argument arrays. -/
theorem final (c : Dev nD) : (dats m 0 c).arrAt 3 cfg0.N
    = Cert.Pwlu.G (m ((c : Thread nD τ).loc main_arg0)) (m ((c : Thread nD τ).loc main_arg1)) :=
  (dats m 0 c).arrAt_eq_of_cover 3 _ (fun t _ => flushed_eq m c t) cover

/-! ## The run, read -/

/-- The frame run re-posted: the result array is `G` of the argument arrays, the arguments unchanged. -/
theorem run : θ_run defs (onTc (τ := τ) (main (F := F))) ⟨m, fun _ => 0, ρ⟩ fun r => ∀ c : Dev nD,
      r.2.mem ((c : Thread nD τ).loc main_v8)
        = Cert.Pwlu.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.KValue

end
-- ==== Proof.RefRun.lean ====
/-
  The reference's run. Its @main is a straight line of 76 array operations once the three outlined functions
  are read at their calls: the clamp (six operations), and the table lookup twice (twenty-two each, one of
  them the selection that wraps a negative position). Listed in order, the line runs to the end on every
  weakly fair execution, and each buffer then holds the composition of the operations over the launch
  contents. The result is named here stage by stage — the normalised input, the region, the offset in the
  region, the position in the flattened tables, the lookup — so that the value proof reads one stage at a time.
-/
import proofs.«102609_j84756884619350_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 76 operations, in order, the calls read in place. -/
abbrev ops : List (HloOp τ sig (Elt F)) :=
  [ nullary main_cst (constant S_ .f32 0x402CCCCD#32),
    unary main_cst main_v0 (broadcastInDim S32x256x56x56 ![] bcast_S_S32x256x56x56 : (⟨S_, .f32⟩ : BufTy).Contents (Elt F) → (⟨S32x256x56x56, .f32⟩ : BufTy).Contents (Elt F)),
    binary main_arg0 main_v0 main_v1 (addf : (⟨S32x256x56x56, .f32⟩ : BufTy).Contents (Elt F) → (⟨S32x256x56x56, .f32⟩ : BufTy).Contents (Elt F) → (⟨S32x256x56x56, .f32⟩ : BufTy).Contents (Elt F)),
    nullary main_cst_0 (constant S_ .f32 0x3F666666#32),
    unary main_cst_0 main_v2 (broadcastInDim S32x256x56x56 ![] bcast_S_S32x256x56x56 : (⟨S_, .f32⟩ : BufTy).Contents (Elt F) → (⟨S32x256x56x56, .f32⟩ : BufTy).Contents (Elt F)),
    binary main_v1 main_v2 main_v3 (Host.divf : (⟨S32x256x56x56, .f32⟩ : BufTy).Contents (Elt F) → (⟨S32x256x56x56, .f32⟩ : BufTy).Contents (Elt F) → (⟨S32x256x56x56, .f32⟩ : BufTy).Contents (Elt F)),
    nullary main_cst_1 (constant S_ .f32 0x00000000#32),
    nullary main_c (constantI S_ 32 5#32),
    -- the clamp: the lower bound broadcast and the maximum with it, the upper bound converted, broadcast, and the minimum with it
    TRef.unary (.of main_cst_1) main_call0.v0 id,
    TRef.unary main_call0.v0 main_call0.v1 (broadcastInDim S32x256x56x56 ![] bcast_S_S32x256x56x56),
    TRef.binary main_call0.v1 (.of main_v3) main_call0.v2 maximumf,
    TRef.unary (.of main_c) main_call0.v3 (sitofp .f32),
    TRef.unary main_call0.v3 main_call0.v4 (broadcastInDim S32x256x56x56 ![] bcast_S_S32x256x56x56),
    TRef.binary main_call0.v4 main_call0.v2 main_call0.v5 minimumf,
    unary main_v4 main_v5 (fptosi 32 : (⟨S32x256x56x56, .f32⟩ : BufTy).Contents (Elt F) → (⟨S32x256x56x56, .i32⟩ : BufTy).Contents (Elt F)),
    unary main_v5 main_v6 (sitofp .f32 : (⟨S32x256x56x56, .i32⟩ : BufTy).Contents (Elt F) → (⟨S32x256x56x56, .f32⟩ : BufTy).Contents (Elt F)),
    binary main_v3 main_v6 main_v7 (subf : (⟨S32x256x56x56, .f32⟩ : BufTy).Contents (Elt F) → (⟨S32x256x56x56, .f32⟩ : BufTy).Contents (Elt F) → (⟨S32x256x56x56, .f32⟩ : BufTy).Contents (Elt F)),
    nullary main_v8 (iotaInDim S256 32 0),
    nullary main_c_2 (constantI S_ 32 6#32),
    unary main_c_2 main_v9 (broadcastInDim S256 ![] bcast_S_S256 : (⟨S_, .i32⟩ : BufTy).Contents (Elt F) → (⟨S256, .i32⟩ : BufTy).Contents (Elt F)),
    binary main_v8 main_v9 main_v10 (muli : (⟨S256, .i32⟩ : BufTy).Contents (Elt F) → (⟨S256, .i32⟩ : BufTy).Contents (Elt F) → (⟨S256, .i32⟩ : BufTy).Contents (Elt F)),
    reshape main_v10 main_v11 rfl shapeCasts_S256_S1x256x1x1,
    unary main_v11 main_v12 (broadcastInDim S32x256x56x56 ![0, 1, 2, 3] bcast_S1x256x1x1_S32x256x56x56_0_1_2_3 : (⟨S1x256x1x1, .i32⟩ : BufTy).Contents (Elt F) → (⟨S32x256x56x56, .i32⟩ : BufTy).Contents (Elt F)),
    binary main_v5 main_v12 main_v13 (addi : (⟨S32x256x56x56, .i32⟩ : BufTy).Contents (Elt F) → (⟨S32x256x56x56, .i32⟩ : BufTy).Contents (Elt F) → (⟨S32x256x56x56, .i32⟩ : BufTy).Contents (Elt F)),
    unary main_arg1 main_v14 ((extractStridedSlice S256x6 ![0, 0] · slices_S256x7_S256x6_0_0) : (⟨S256x7, .f32⟩ : BufTy).Contents (Elt F) → (⟨S256x6, .f32⟩ : BufTy).Contents (Elt F)),
    reshape main_v14 main_v15 rfl shapeCasts_S256x6_S1536,
    unary main_arg1 main_v16 ((extractStridedSlice S256x6 ![0, 1] · slices_S256x7_S256x6_0_1) : (⟨S256x7, .f32⟩ : BufTy).Contents (Elt F) → (⟨S256x6, .f32⟩ : BufTy).Contents (Elt F)),
    unary main_arg1 main_v17 ((extractStridedSlice S256x6 ![0, 0] · slices_S256x7_S256x6_0_0) : (⟨S256x7, .f32⟩ : BufTy).Contents (Elt F) → (⟨S256x6, .f32⟩ : BufTy).Contents (Elt F)),
    binary main_v16 main_v17 main_v18 (subf : (⟨S256x6, .f32⟩ : BufTy).Contents (Elt F) → (⟨S256x6, .f32⟩ : BufTy).Contents (Elt F) → (⟨S256x6, .f32⟩ : BufTy).Contents (Elt F)),
    reshape main_v18 main_v19 rfl shapeCasts_S256x6_S1536,
    -- the table lookup (call 1): a negative position wraps by the table's length, the position is tested against [0, 1535], the table is read there, and a position out of range gives the not-a-number word
    TRef.nullary main_call1.c (constantI S_ 32 0#32),
    TRef.unary main_call1.c main_call1.v0 (broadcastInDim S32x256x56x56 ![] bcast_S_S32x256x56x56),
    TRef.binary (.of main_v13) main_call1.v0 main_call1.v1 (cmpi .slt),
    TRef.nullary main_call1.c_0 (constantI S_ 32 1536#32),
    TRef.unary main_call1.c_0 main_call1.v2 (broadcastInDim S32x256x56x56 ![] bcast_S_S32x256x56x56),
    TRef.binary (.of main_v13) main_call1.v2 main_call1.v3 addi,
    TRef.ternary main_call1.v1 main_call1.v3 (.of main_v13) main_call1.call0.v0 select,
    TRef.unary main_call1.call0.v0 main_call1.v5 (broadcastInDim S32x256x56x56x1 ![0, 1, 2, 3] bcast_S32x256x56x56_S32x256x56x56x1_0_1_2_3),
    TRef.nullary main_call1.c_1 (constantI S1 32 1535#32),
    TRef.nullary main_call1.c_2 (constantI S_ 32 0#32),
    TRef.unary main_call1.c_2 main_call1.v6 (broadcastInDim S32x256x56x56x1 ![] bcast_S_S32x256x56x56x1),
    TRef.binary main_call1.v5 main_call1.v6 main_call1.v7 (cmpi .sge),
    TRef.unary main_call1.c_1 main_call1.v8 (broadcastInDim S1x1x1x1x1 ![4] bcast_S1_S1x1x1x1x1_4),
    TRef.unary main_call1.v8 main_call1.v9 (broadcastInDim S32x256x56x56x1 ![0, 1, 2, 3, 4] bcast_S1x1x1x1x1_S32x256x56x56x1_0_1_2_3_4),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x256x56x56x1_S32x256x56x56_d4 h_S_),
    TRef.binary (.of main_v15) main_call1.v5 main_call1.v13 (fun x i => Host.gather gather_S1536_S32x256x56x56x1_S32x256x56x56_n_0_n_n_0_4_1 x i),
    TRef.nullary main_call1.cst (constant S_ .f32 0x7FC00000#32),
    TRef.unary main_call1.cst main_call1.v14 (broadcastInDim S32x256x56x56 ![] bcast_S_S32x256x56x56),
    TRef.ternary main_call1.v12 main_call1.v13 main_call1.v14 main_call1.v15 select,
    -- the table lookup (call 2): a negative position wraps by the table's length, the position is tested against [0, 1535], the table is read there, and a position out of range gives the not-a-number word
    TRef.nullary main_call2.c (constantI S_ 32 0#32),
    TRef.unary main_call2.c main_call2.v0 (broadcastInDim S32x256x56x56 ![] bcast_S_S32x256x56x56),
    TRef.binary (.of main_v13) main_call2.v0 main_call2.v1 (cmpi .slt),
    TRef.nullary main_call2.c_0 (constantI S_ 32 1536#32),
    TRef.unary main_call2.c_0 main_call2.v2 (broadcastInDim S32x256x56x56 ![] bcast_S_S32x256x56x56),
    TRef.binary (.of main_v13) main_call2.v2 main_call2.v3 addi,
    TRef.ternary main_call2.v1 main_call2.v3 (.of main_v13) main_call2.call0.v0 select,
    TRef.unary main_call2.call0.v0 main_call2.v5 (broadcastInDim S32x256x56x56x1 ![0, 1, 2, 3] bcast_S32x256x56x56_S32x256x56x56x1_0_1_2_3),
    TRef.nullary main_call2.c_1 (constantI S1 32 1535#32),
    TRef.nullary main_call2.c_2 (constantI S_ 32 0#32),
    TRef.unary main_call2.c_2 main_call2.v6 (broadcastInDim S32x256x56x56x1 ![] bcast_S_S32x256x56x56x1),
    TRef.binary main_call2.v5 main_call2.v6 main_call2.v7 (cmpi .sge),
    TRef.unary main_call2.c_1 main_call2.v8 (broadcastInDim S1x1x1x1x1 ![4] bcast_S1_S1x1x1x1x1_4),
    TRef.unary main_call2.v8 main_call2.v9 (broadcastInDim S32x256x56x56x1 ![0, 1, 2, 3, 4] bcast_S1x1x1x1x1_S32x256x56x56x1_0_1_2_3_4),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32x256x56x56x1_S32x256x56x56_d4 h_S_),
    TRef.binary (.of main_v19) main_call2.v5 main_call2.v13 (fun x i => Host.gather gather_S1536_S32x256x56x56x1_S32x256x56x56_n_0_n_n_0_4_1 x i),
    TRef.nullary main_call2.cst (constant S_ .f32 0x7FC00000#32),
    TRef.unary main_call2.cst main_call2.v14 (broadcastInDim S32x256x56x56 ![] bcast_S_S32x256x56x56),
    TRef.ternary main_call2.v12 main_call2.v13 main_call2.v14 main_call2.v15 select,
    binary main_v7 main_v21 main_v22 (mulf : (⟨S32x256x56x56, .f32⟩ : BufTy).Contents (Elt F) → (⟨S32x256x56x56, .f32⟩ : BufTy).Contents (Elt F) → (⟨S32x256x56x56, .f32⟩ : BufTy).Contents (Elt F)),
    binary main_v20 main_v22 main_v23 (addf : (⟨S32x256x56x56, .f32⟩ : BufTy).Contents (Elt F) → (⟨S32x256x56x56, .f32⟩ : BufTy).Contents (Elt F) → (⟨S32x256x56x56, .f32⟩ : BufTy).Contents (Elt F)) ]

-- seventy-six nested steps: the comparison recurses once per statement
set_option maxRecDepth 8192 in
/-- @main is that straight line: with the functions' definitions unfolded at their calls and the call records at
    their fields, both sides are the same chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., nullary_bufs_sub .., unary_bufs_sub ..,
    binary_bufs_sub .., reshape_bufs_sub .., unary_bufs_sub .., binary_bufs_sub .., unary_bufs_sub .., reshape_bufs_sub ..,
    unary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    binary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's result, stage by stage, as functions of the two argument arrays: the normalised input
  `u = (x + 2.7) / 0.9`, its clamp into `[0, 5]`, the region (the clamp truncated), the offset `u − region`,
  the position `region + 6 · channel` in a flattened table, and the lookup at a position (a negative position
  wrapped by the table's length 1536; the table read at the position clamped into range; the not-a-number
  word wherever the wrapped position falls outside `[0, 1535]`). The result is
  `lookup left + offset · lookup rise`.
-/
import proofs.«102609_j84756884619350_1_alg».proof.Proof.Gen.ReferenceIdeal

noncomputable section

namespace Cert.ReferenceIdeal.Stages

open Cert.ReferenceIdeal Cert.ReferenceIdeal.Gen Idealize.ShloMosaic

variable {F : FTy → Type} [FloatOps F]

/-- `u = (x + 2.7) / 0.9`, element by element. -/
def xn (x : FVec F S32x256x56x56 .f32) : FVec F S32x256x56x56 .f32 :=
  Host.divf (addf x (broadcastInDim S32x256x56x56 ![] bcast_S_S32x256x56x56 (constant S_ .f32 0x402CCCCD#32)))
    (broadcastInDim S32x256x56x56 ![] bcast_S_S32x256x56x56 (constant S_ .f32 0x3F666666#32))

/-- `u` clamped: the maximum with the lower bound `0.0`, then the minimum with the upper bound, the integer `5` converted. -/
def clamped (x : FVec F S32x256x56x56 .f32) : FVec F S32x256x56x56 .f32 :=
  minimumf (broadcastInDim S32x256x56x56 ![] bcast_S_S32x256x56x56 (sitofp (F := F) .f32 (constantI S_ 32 5#32)))
    (maximumf (broadcastInDim S32x256x56x56 ![] bcast_S_S32x256x56x56 (id (constant S_ .f32 0x00000000#32))) (xn x))

/-- The region: the clamp truncated to an integer word. -/
def reg (x : FVec F S32x256x56x56 .f32) : IVec S32x256x56x56 32 := fptosi 32 (clamped x)

/-- The offset inside the region. -/
def dist (x : FVec F S32x256x56x56 .f32) : FVec F S32x256x56x56 .f32 := subf (xn x) (sitofp .f32 (reg x))

/-- `6 · channel`, laid along the channel axis. -/
def chanOff : IVec S32x256x56x56 32 :=
  broadcastInDim S32x256x56x56 ![0, 1, 2, 3] bcast_S1x256x1x1_S32x256x56x56_0_1_2_3
    (shapeCast S1x256x1x1 (muli (iotaInDim S256 32 0) (broadcastInDim S256 ![] bcast_S_S256 (constantI S_ 32 6#32)))
      shapeCasts_S256_S1x256x1x1)

/-- The position in a flattened table: `region + 6 · channel`. -/
def pos (x : FVec F S32x256x56x56 .f32) : IVec S32x256x56x56 32 := addi (reg x) chanOff

/-- A position with a negative one wrapped by the table's length, as a column of start indices. -/
def wrapped (q : IVec S32x256x56x56 32) : IVec S32x256x56x56x1 32 :=
  broadcastInDim S32x256x56x56x1 ![0, 1, 2, 3] bcast_S32x256x56x56_S32x256x56x56x1_0_1_2_3
    (select (cmpi .slt q (broadcastInDim S32x256x56x56 ![] bcast_S_S32x256x56x56 (constantI S_ 32 0#32)))
      (addi q (broadcastInDim S32x256x56x56 ![] bcast_S_S32x256x56x56 (constantI S_ 32 1536#32))) q)

/-- Whether the wrapped position lies in `[0, 1535]`. -/
def inRange (q5 : IVec S32x256x56x56x1 32) : IVec S32x256x56x56 1 :=
  Host.reduce IntOp.andi
    (andi (cmpi .sge q5 (broadcastInDim S32x256x56x56x1 ![] bcast_S_S32x256x56x56x1 (constantI S_ 32 0#32)))
      (cmpi .sle q5 (broadcastInDim S32x256x56x56x1 ![0, 1, 2, 3, 4] bcast_S1x1x1x1x1_S32x256x56x56x1_0_1_2_3_4
        (broadcastInDim S1x1x1x1x1 ![4] bcast_S1_S1x1x1x1x1_4 (constantI S1 32 1535#32)))))
    (constantI S_ 1 1#1) reducesTo_S32x256x56x56x1_S32x256x56x56_d4 h_S_

/-- The lookup of a flattened table at an array of positions. -/
def lookup (tbl : FVec F S1536 .f32) (q : IVec S32x256x56x56 32) : FVec F S32x256x56x56 .f32 :=
  select (inRange (wrapped q))
    (Host.gather gather_S1536_S32x256x56x56x1_S32x256x56x56_n_0_n_n_0_4_1 tbl (wrapped q))
    (broadcastInDim S32x256x56x56 ![] bcast_S_S32x256x56x56 (constant S_ .f32 0x7FC00000#32))

/-- The left break points `p c 0 … p c 5` of every channel, flattened. -/
def leftTbl (p : FVec F S256x7 .f32) : FVec F S1536 .f32 :=
  shapeCast S1536 (extractStridedSlice S256x6 ![0, 0] p slices_S256x7_S256x6_0_0) shapeCasts_S256x6_S1536

/-- The rises `p c (k + 1) − p c k`, flattened. -/
def riseTbl (p : FVec F S256x7 .f32) : FVec F S1536 .f32 :=
  shapeCast S1536 (subf (extractStridedSlice S256x6 ![0, 1] p slices_S256x7_S256x6_0_1)
    (extractStridedSlice S256x6 ![0, 0] p slices_S256x7_S256x6_0_0)) shapeCasts_S256x6_S1536

/-- THE REFERENCE'S RESULT: left break point of the region plus the offset times the region's rise. -/
def refOut (x : FVec F S32x256x56x56 .f32) (p : FVec F S256x7 .f32) : FVec F S32x256x56x56 .f32 :=
  addf (lookup (leftTbl p) (pos x)) (mulf (dist x) (lookup (riseTbl p) (pos x)))

end Cert.ReferenceIdeal.Stages

end
-- ==== Proof.RefOut.lean ====
/-
  The reference's run, read back: every weakly fair execution ends with the result buffer at `refOut` of the two
  argument arrays as launched — the fold of the 76 operations at that buffer is the composition of the stages —
  and with the argument arrays as they were.
-/
import proofs.«102609_j84756884619350_1_alg».proof.Proof.RefRun
import proofs.«102609_j84756884619350_1_alg».proof.Proof.RefStages

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Contents moved to a buffer's own type and back are the contents. -/
theorem ofBuf_toBuf {T : BufTy} (x : TRef sig T) (v : T.Contents (Elt F)) : x.ofBuf (x.toBuf v) = v := by
  obtain ⟨r, h, _, _⟩ := x
  subst h
  rfl

attribute [local irreducible] Host.reduce Host.gather in
set_option maxRecDepth 8192 in
set_option maxHeartbeats 2000000 in
/-- The fold of the operations at the result buffer is the composition of the stages (the reduction and the gather
    kept folded: the comparison never looks inside them). -/
theorem out_eq (V : Valuation τ sig (Elt F)) :
    after ops V (main_v23 : DevRef τ sig) = refOut (V (main_arg0 : DevRef τ sig)) (V (main_arg1 : DevRef τ sig)) := by
  unfold refOut lookup inRange wrapped pos chanOff dist reg clamped xn leftTbl riseTbl
  after_results_simp
  simp only [ofBuf_toBuf]
  rfl

set_option maxRecDepth 8192 in
/-- No operation writes the first argument's buffer, -/
theorem arg0_eq (V : Valuation τ sig (Elt F)) : after ops V (main_arg0 : DevRef τ sig) = V (main_arg0 : DevRef τ sig) := by
  after_results_simp

set_option maxRecDepth 8192 in
/-- nor the second's. -/
theorem arg1_eq (V : Valuation τ sig (Elt F)) : after ops V (main_arg1 : DevRef τ sig) = V (main_arg1 : DevRef τ sig) := by
  after_results_simp

/-- THE RUN: the result buffer ends at `refOut` of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq (launchContents m c)),
      (h c main_arg0).trans (arg0_eq (launchContents m c)),
      (h c main_arg1).trans (arg1_eq (launchContents m c))⟩)
    (run_main m ρ)

end Cert.ReferenceIdeal.RefRun

end
-- ==== Proof.LibTake4.lean ====
/-
  A table lookup `table[idx]` of a flat table `[N]` at a FOUR-axis array of positions `[A, B, C, D]`, read at an index.

  jnp's `take` of a rank-1 table at a rank-4 integer array lowers to a gather with no offset axes, the table's one
  axis collapsed and start-indexed, slice size 1, and the index vector on a trailing axis of extent 1 (the positions
  as `[A, B, C, D, 1]`). Result element `(a, b, c, d)` is the table at position `idx (a, b, c, d, 0)`, read as a
  signed integer and clamped into `[0, N − 1]` (the gather clamps every start index). Generic in the extents, the
  positions' width and the table's element type.
-/
import Idealize.ShloMosaic.Lib.ValueIdx

noncomputable section

namespace Cert.LibTake4

open Idealize.ShloMosaic Idealize.ShloMosaic.ValueIdx

variable {α : Type}

/-- Those dimension numbers for a table `[N]`, positions `[A, B, C, D, 1]` and result `[A, B, C, D]`. -/
abbrev take4Dims (N A B C D : Nat)
    (wf : GatherDims.WF ⟨1, ![N]⟩ ⟨5, ![A, B, C, D, 1]⟩ ⟨4, ![A, B, C, D]⟩ [] [0] [] [0] [] 4 ![1]) :
    GatherDims ⟨1, ![N]⟩ ⟨5, ![A, B, C, D, 1]⟩ ⟨4, ![A, B, C, D]⟩ where
  offsetDims := []
  collapsedSliceDims := [0]
  operandBatchingDims := []
  startIndicesBatchingDims := []
  startIndexMap := [0]
  indexVectorDim := 4
  sliceSizes := ![1]
  wf := wf

/-- The positions' index `(a, b, c, d, 0)` of result index `(a, b, c, d)`. -/
abbrev take4Idx {A B C D : Nat} (y : (⟨4, ![A, B, C, D]⟩ : Shape).Idx) : (⟨5, ![A, B, C, D, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => ⟨0, Nat.one_pos⟩

/-- THE LOOKUP READ AT `(a, b, c, d)`: the table at the position `idx (a, b, c, d, 0)`, read signed and clamped
    into `[0, N − 1]`. -/
theorem gather_take4_apply {N A B C D w : Nat} (hN : 0 < N)
    (wf : GatherDims.WF ⟨1, ![N]⟩ ⟨5, ![A, B, C, D, 1]⟩ ⟨4, ![A, B, C, D]⟩ [] [0] [] [0] [] 4 ![1])
    (x : (⟨1, ![N]⟩ : Shape).Idx → α) (idx : IVec ⟨5, ![A, B, C, D, 1]⟩ w) (y : (⟨4, ![A, B, C, D]⟩ : Shape).Idx) :
    Host.gather (take4Dims N A B C D wf) x idx y = x (ix1 ⟨min (idx (take4Idx y)).toInt.toNat (N - 1), by omega⟩) := by
  unfold Host.gather
  congr 1
  funext a
  obtain rfl : a = 0 := Subsingleton.elim _ _
  refine Fin.ext ?_
  show (take4Dims N A B C D wf).start y idx 0 + (take4Dims N A B C D wf).batchCoord y 0
    + (take4Dims N A B C D wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take4Dims N A B C D wf).startIndexMap from List.mem_singleton.mpr rfl)]
  have hsi : (take4Dims N A B C D wf).siIdx y ⟨List.idxOf (0 : Fin 1) (take4Dims N A B C D wf).startIndexMap,
      List.idxOf_lt_length_iff.2 (List.mem_singleton.mpr rfl)⟩ = take4Idx y := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

end Cert.LibTake4

end
-- ==== Proof.RefValue.lean ====
/-
  The reference's composition, read at an index, is the piecewise-linear function `G`.

  At the extended reals the region of every element is one of `0 … 5` (Spec), so the position
  `region + 6 · channel` is the number `6 c + k ≤ 1535`: it is not negative, so the wrap leaves it; it is in range,
  so the range test holds at every element and the not-a-number fill is never chosen; and the clamp inside the
  gather leaves it. The flattened tables at `6 c + k` are the break point `p c k` and the rise `p c (k + 1) − p c k`,
  which is what the selection chain picks at region `k`.
-/
import proofs.«102609_j84756884619350_1_alg».proof.Proof.RefStages
import proofs.«102609_j84756884619350_1_alg».proof.Proof.Spec
import proofs.«102609_j84756884619350_1_alg».proof.Proof.LibTake4
import Idealize.ShloMosaic.Lib.Pipeline.Value
import Idealize.ShloMosaic.Lib.IdealHost
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.Stages Cert.Pwlu Cert.LibTake4
open Idealize.ShloMosaic Idealize.ShloMosaic.ValueIdx Idealize.ShloMosaic.StableHlo.Predicate

variable {F : FTy → Type} [FloatOps F]

/-! ## A conjunction of ones is one -/

theorem foldl_andi_ones {ι : Type} (x : ι → BitVec 1) (hx : ∀ i, x i = 1#1) (L : List ι) :
    L.foldl (fun r i => IntOp.andi r (x i)) 1#1 = 1#1 := by
  induction L with
  | nil => rfl
  | cons a L ih =>
    rw [List.foldl_cons, hx a, show IntOp.andi (1#1 : BitVec 1) 1#1 = 1#1 from by decide]
    exact ih

/-- A reduction by `and`, from the initial value one, of an array of ones is one everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## The column of start indices -/

/-- Every index of the column `[32, 256, 56, 56, 1]` is the one under a result index. -/
theorem eq_take4Idx (j : S32x256x56x56x1.Idx) : ∃ i : S32x256x56x56.Idx, j = take4Idx i := by
  refine ⟨fun a => match a with
    | ⟨0, _⟩ => ⟨(j 0).val, (j 0).isLt⟩
    | ⟨1, _⟩ => ⟨(j 1).val, (j 1).isLt⟩
    | ⟨2, _⟩ => ⟨(j 2).val, (j 2).isLt⟩
    | ⟨3, _⟩ => ⟨(j 3).val, (j 3).isLt⟩, ?_⟩
  funext a; apply Fin.ext
  match a with
  | ⟨0, _⟩ => rfl
  | ⟨1, _⟩ => rfl
  | ⟨2, _⟩ => rfl
  | ⟨3, _⟩ => rfl
  | ⟨4, _⟩ =>
    have h4 : (j 4).val < 1 := (j 4).isLt
    show (j 4).val = 0
    omega

/-- A position that is a small natural number is not negative: the wrap leaves it. -/
theorem wrapped_apply (q : IVec S32x256x56x56 32) (i : S32x256x56x56.Idx) (n : Nat) (hn : n < 2 ^ 31)
    (hq : q i = BitVec.ofNat 32 n) : wrapped q (take4Idx i) = BitVec.ofNat 32 n := by
  unfold wrapped
  refine (broadcastInDim_apply _ _ _ (take4Idx i) i (fun a => ?_)).trans ?_
  · match a with
    | ⟨0, _⟩ => show (i 0).val = (if (32 : Nat) = 1 then 0 else (i 0).val); rw [if_neg (by decide)]
    | ⟨1, _⟩ => show (i 1).val = (if (256 : Nat) = 1 then 0 else (i 1).val); rw [if_neg (by decide)]
    | ⟨2, _⟩ => show (i 2).val = (if (56 : Nat) = 1 then 0 else (i 2).val); rw [if_neg (by decide)]
    | ⟨3, _⟩ => show (i 3).val = (if (56 : Nat) = 1 then 0 else (i 3).val); rw [if_neg (by decide)]
  · show Scalar.select (IntOp.cmpi .slt (q i) 0#32) (IntOp.addi (q i) 1536#32) (q i) = _
    rw [hq]
    have hlt : (BitVec.ofNat 32 n).toNat < 2 ^ 31 := by
      rw [BitVec.toNat_ofNat]; exact lt_of_le_of_lt (Nat.mod_le _ _) hn
    have h0 : IntOp.cmpi .slt (BitVec.ofNat 32 n) 0#32 = 0#1 :=
      eq_zero_of_ne_one fun h => Nat.not_lt_zero _ ((slt_iff_toNat hlt (by decide)).mp h)
    rw [h0, select_zero]

/-- Where every position is a number up to 1535, the range test holds at every element. -/
theorem inRange_apply (q : IVec S32x256x56x56 32) (n : S32x256x56x56.Idx → Nat) (hn : ∀ i, n i ≤ 1535)
    (hq : ∀ i, q i = BitVec.ofNat 32 (n i)) (i : S32x256x56x56.Idx) : inRange (wrapped q) i = 1#1 := by
  unfold inRange
  refine reduce_andi_ones _ _ _ _ rfl (fun j => ?_) i
  obtain ⟨i', rfl⟩ := eq_take4Idx j
  show IntOp.andi (IntOp.cmpi .sge (wrapped q (take4Idx i')) 0#32) (IntOp.cmpi .sle (wrapped q (take4Idx i')) 1535#32) = 1#1
  have hi := hn i'
  rw [wrapped_apply q i' (n i') (by omega) (hq i')]
  have hlt : (BitVec.ofNat 32 (n i')).toNat < 2 ^ 31 := by
    rw [BitVec.toNat_ofNat]; exact lt_of_le_of_lt (Nat.mod_le _ _) (by omega)
  have hle : (BitVec.ofNat 32 (n i')).toNat ≤ 1535 := by
    rw [BitVec.toNat_ofNat]; exact le_trans (Nat.mod_le _ _) hi
  have h1 : IntOp.cmpi .sge (BitVec.ofNat 32 (n i')) 0#32 = 1#1 := (sge_iff_toNat hlt (by decide)).mpr (Nat.zero_le _)
  have h2 : IntOp.cmpi .sle (BitVec.ofNat 32 (n i')) 1535#32 = 1#1 := (sle_iff_toNat hlt (by decide)).mpr hle
  rw [h1, h2]
  decide

/-- The gather at a start index that is a number up to 1535 reads the table there: the clamp leaves it. -/
theorem gather_apply (tbl : FVec F S1536 .f32) (q5 : IVec S32x256x56x56x1 32) (i : S32x256x56x56.Idx) (n : Nat)
    (hn : n ≤ 1535) (hq : q5 (take4Idx i) = BitVec.ofNat 32 n) :
    Host.gather gather_S1536_S32x256x56x56x1_S32x256x56x56_n_0_n_n_0_4_1 tbl q5 i = tbl (ix1 ⟨n, by omega⟩) := by
  refine (gather_take4_apply (N := 1536) (by decide) gather_S1536_S32x256x56x56x1_S32x256x56x56_n_0_n_n_0_4_1_wf tbl q5 i).trans ?_
  have e : min (q5 (take4Idx i)).toInt.toNat (1536 - 1) = n := by
    rw [hq, toInt_ofNat_small n (by omega), Int.toNat_natCast]; omega
  exact congrArg tbl (congrArg ix1 (Fin.ext e))

/-- THE LOOKUP where every position is a number up to 1535: the table at that number. -/
theorem lookup_apply (tbl : FVec F S1536 .f32) (q : IVec S32x256x56x56 32) (n : S32x256x56x56.Idx → Nat)
    (hn : ∀ i, n i ≤ 1535) (hq : ∀ i, q i = BitVec.ofNat 32 (n i)) (i : S32x256x56x56.Idx) :
    lookup tbl q i = tbl (ix1 ⟨n i, by have := hn i; omega⟩) := by
  unfold lookup
  rw [select_apply, inRange_apply q n hn hq i, select_one]
  exact gather_apply tbl (wrapped q) i (n i) (hn i) (wrapped_apply q i (n i) (by have := hn i; omega) (hq i))

/-! ## The flattened tables at `6 c + k` -/

theorem leftTbl_apply (p : FVec F S256x7 .f32) (c : Fin 256) (k : Fin 6) (h : c.val * 6 + k.val < 1536) :
    leftTbl p (ix1 ⟨c.val * 6 + k.val, h⟩) = lrow p c k := by
  unfold leftTbl lrow
  refine (shapeCast_apply _ _ _ (ix2 c k) ?_).trans ?_
  · rw [Shape.rowMajor_val_two, Shape.rowMajor_val_one]; rfl
  · exact extractStridedSlice_apply _ _ _ _ _ fun a => by
      match a with
      | ⟨0, _⟩ => show c.val = 0 + c.val; omega
      | ⟨1, _⟩ => show k.val = 0 + k.val; omega

theorem riseTbl_apply (p : FVec F S256x7 .f32) (c : Fin 256) (k : Fin 6) (h : c.val * 6 + k.val < 1536) :
    riseTbl p (ix1 ⟨c.val * 6 + k.val, h⟩) = drow p c k := by
  unfold riseTbl drow
  refine (shapeCast_apply _ _ _ (ix2 c k) ?_).trans ?_
  · rw [Shape.rowMajor_val_two, Shape.rowMajor_val_one]; rfl
  · show FloatOps.subf (extractStridedSlice S256x6 ![0, 1] p slices_S256x7_S256x6_0_1 (ix2 c k))
        (extractStridedSlice S256x6 ![0, 0] p slices_S256x7_S256x6_0_0 (ix2 c k)) = _
    rw [extractStridedSlice_apply ![0, 1] p slices_S256x7_S256x6_0_1 (ix2 c k) (ix2 c ⟨k.val + 1, by omega⟩) fun a => by
        match a with
        | ⟨0, _⟩ => show c.val = 0 + c.val; omega
        | ⟨1, _⟩ => show k.val + 1 = 1 + k.val; omega,
      extractStridedSlice_apply ![0, 0] p slices_S256x7_S256x6_0_0 (ix2 c k) (ix2 c ⟨k.val, by omega⟩) fun a => by
        match a with
        | ⟨0, _⟩ => show c.val = 0 + c.val; omega
        | ⟨1, _⟩ => show k.val = 0 + k.val; omega]

/-! ## At the extended reals: the stages at an index -/

/-- The upper bound of the clamp, the integer five converted, is the literal `5.0` of the kernel's clamp. -/
theorem five_eq : FloatOps.sitofp (F := Ideal) .f32 (5#32 : BitVec 32) = Scalar.ofBits (F := Ideal) .f32 0x40A00000#32 := by
  show (((5#32 : BitVec 32).toInt : ℝ) : EReal) = Ideal.ofBits .f32 0x40A00000#32
  rw [ofBits_five, show (5#32 : BitVec 32).toInt = 5 from by decide]
  norm_num

/-- The region array at an index is the region of the element there. -/
theorem reg_apply (x : FVec Ideal S32x256x56x56 .f32) (i : S32x256x56x56.Idx) : reg x i = region (x i) := by
  show FloatOps.fptosi 32 (FloatOps.minimumf (FloatOps.sitofp (F := Ideal) .f32 (5#32 : BitVec 32))
    (FloatOps.maximumf (Scalar.ofBits (F := Ideal) .f32 0x00000000#32) (xnorm (x i)))) = _
  rw [five_eq]
  rfl

/-- `6 · channel` at an index. -/
theorem chanOff_apply (i : S32x256x56x56.Idx) : chanOff i = BitVec.ofNat 32 ((i 1).val * 6) := by
  unfold chanOff
  refine (broadcastInDim_apply _ _ _ i
    (ix4 (0 : Fin 1) (⟨(i 1).val, (i 1).isLt⟩ : Fin 256) (0 : Fin 1) (0 : Fin 1) : S1x256x1x1.Idx) (fun a => ?_)).trans ?_
  · match a with
    | ⟨0, _⟩ => show (0 : Nat) = (if (1 : Nat) = 1 then 0 else (i 0).val); rw [if_pos rfl]
    | ⟨1, _⟩ => show (i 1).val = (if (256 : Nat) = 1 then 0 else (i 1).val); rw [if_neg (by decide)]
    | ⟨2, _⟩ => show (0 : Nat) = (if (1 : Nat) = 1 then 0 else (i 2).val); rw [if_pos rfl]
    | ⟨3, _⟩ => show (0 : Nat) = (if (1 : Nat) = 1 then 0 else (i 3).val); rw [if_pos rfl]
  · refine (shapeCast_apply _ _ _ (ix1 (⟨(i 1).val, (i 1).isLt⟩ : Fin 256)) ?_).trans ?_
    · rw [Shape.rowMajor_val_one, Shape.rowMajor_val_four]
      show (i 1).val = ((0 * 256 + (i 1).val) * 1 + 0) * 1 + 0
      omega
    · show BitVec.ofNat 32 (i 1).val * 6#32 = BitVec.ofNat 32 ((i 1).val * 6)
      rw [BitVec.ofNat_mul]

/-- The number of an element's region, -/
def regionIdx (a : Ideal .f32) : Fin 6 := Classical.choose (region_mem a)

theorem region_eq (a : Ideal .f32) : region (F := Ideal) a = BitVec.ofNat 32 (regionIdx a).val :=
  Classical.choose_spec (region_mem a)

/-- and the position `6 c + k` of an element as a number. -/
def posNat (x : FVec Ideal S32x256x56x56 .f32) (i : S32x256x56x56.Idx) : Nat := (i 1).val * 6 + (regionIdx (x i)).val

theorem posNat_le (x : FVec Ideal S32x256x56x56 .f32) (i : S32x256x56x56.Idx) : posNat x i ≤ 1535 := by
  unfold posNat
  have h1 : (i 1).val < 256 := (i 1).isLt
  have h2 := (regionIdx (x i)).isLt
  omega

theorem pos_apply (x : FVec Ideal S32x256x56x56 .f32) (i : S32x256x56x56.Idx) : pos x i = BitVec.ofNat 32 (posNat x i) := by
  show IntOp.addi (reg x i) (chanOff i) = _
  rw [reg_apply, region_eq, chanOff_apply]
  show BitVec.ofNat 32 (regionIdx (x i)).val + BitVec.ofNat 32 ((i 1).val * 6) = BitVec.ofNat 32 (posNat x i)
  rw [← BitVec.ofNat_add]
  unfold posNat
  rw [Nat.add_comm]

/-! ## The reference's result is `G` -/

/-- The array operations of the last stages, read at an index. -/
theorem addf_at {s : Shape} {φ : FTy} (a b : FVec F s φ) (i : s.Idx) : addf a b i = FloatOps.addf (a i) (b i) := rfl
theorem mulf_at {s : Shape} {φ : FTy} (a b : FVec F s φ) (i : s.Idx) : mulf a b i = FloatOps.mulf (a i) (b i) := rfl
theorem subf_at {s : Shape} {φ : FTy} (a b : FVec F s φ) (i : s.Idx) : subf a b i = FloatOps.subf (a i) (b i) := rfl

/-- The normalised input at an index is that of the element there: the host's quotient is the kernel's. -/
theorem xn_apply (x : FVec Ideal S32x256x56x56 .f32) (i : S32x256x56x56.Idx) : xn x i = xnorm (x i) := rfl

/-- The result at an index, before the tables are read: the two lookups at the element's position. -/
theorem refOut_apply (x : FVec Ideal S32x256x56x56 .f32) (p : FVec Ideal S256x7 .f32) (i : S32x256x56x56.Idx) :
    refOut x p i = FloatOps.addf (leftTbl p (ix1 ⟨posNat x i, by have := posNat_le x i; omega⟩))
      (FloatOps.mulf (FloatOps.subf (xnorm (x i)) (FloatOps.sitofp .f32 (region (x i))))
        (riseTbl p (ix1 ⟨posNat x i, by have := posNat_le x i; omega⟩))) := by
  unfold refOut Stages.dist
  rw [addf_at, mulf_at, subf_at, sitofp_apply,
    lookup_apply (leftTbl p) (pos x) (posNat x) (posNat_le x) (pos_apply x) i,
    lookup_apply (riseTbl p) (pos x) (posNat x) (posNat_le x) (pos_apply x) i, reg_apply, xn_apply]

/-- The piecewise-linear value at an index, the selection chain read at the element's region. -/
theorem G_apply (x : FVec Ideal S32x256x56x56 .f32) (p : FVec Ideal S256x7 .f32) (i : S32x256x56x56.Idx) :
    G x p i = FloatOps.addf (lrow p ⟨(i 1).val, (i 1).isLt⟩ (regionIdx (x i)))
      (FloatOps.mulf (FloatOps.subf (xnorm (x i)) (FloatOps.sitofp .f32 (region (x i))))
        (drow p ⟨(i 1).val, (i 1).isLt⟩ (regionIdx (x i)))) := by
  show pwlu (x i) (lrow p ⟨(i 1).val, (i 1).isLt⟩) (drow p ⟨(i 1).val, (i 1).isLt⟩) = _
  unfold pwlu
  have e1 := pick_ofNat (regionIdx (x i)) (lrow p ⟨(i 1).val, (i 1).isLt⟩)
  have e2 := pick_ofNat (regionIdx (x i)) (drow p ⟨(i 1).val, (i 1).isLt⟩)
  rw [← region_eq (x i)] at e1 e2
  rw [e1, e2]

theorem refOut_eq_G (x : FVec Ideal S32x256x56x56 .f32) (p : FVec Ideal S256x7 .f32) : refOut x p = G x p := by
  funext i
  rw [refOut_apply, G_apply]
  have hp : (⟨(i 1).val, (i 1).isLt⟩ : Fin 256).val * 6 + (regionIdx (x i)).val < 1536 := by
    have h := posNat_le x i
    unfold posNat at h
    show (i 1).val * 6 + (regionIdx (x i)).val < 1536
    omega
  exact congrArg₂ FloatOps.addf (leftTbl_apply p ⟨(i 1).val, (i 1).isLt⟩ (regionIdx (x i)) hp)
    (congrArg₂ FloatOps.mulf rfl (riseTbl_apply p ⟨(i 1).val, (i 1).isLt⟩ (regionIdx (x i)) hp))

end Cert.ReferenceIdeal.RefValue

end
-- ==== Proof.lean ====
/-
  The claim: a piecewise-linear unit with six regions per channel, as a kernel and as its array reference.

  For an input element `a` of channel `c` both programs form `u = (a + 2.7) / 0.9` (the same two f32 literals),
  clamp `u` into `[0, 5]`, truncate it to the region `r`, and return `p c r + (u − r) · (p c (r + 1) − p c r)` over the
  channel's seven break points `p c 0 … p c 6`. They differ only in how the two break-point values are fetched: the
  kernel selects them by six comparisons `r = 5, 4, …, 0` against per-region rows it stages in blocks of 128 channels,
  the reference reads them out of the two tables flattened to length 1536 at position `6 c + r` (with a wrap of
  negative positions, a range test and a not-a-number fill that positions `0 … 1535` never meet). No law of the
  extended reals is needed beyond the two programs computing the same tree of operations: what has to be shown is
  that the region is one of `0 … 5` — it is, whatever the input, because the clamp lands in `[0, 5]` — so that the
  selection chain at region `k` is entry `k` and the table position `6 c + k` is in range.

  Modules: Spec (the scalar formula, the whole-array function `G`, the region's range), KernelValue (the kernel's
  result array is `G`: each grid point writes block `(b, c / 128)` of `G`, and the 64 blocks tile the array),
  RefRun / RefStages / RefOut (the reference's 76 operations as a straight line, its result as a composition of named
  stages), RefValue (that composition at an index is `G`), LibTake4 (a table lookup at a four-axis array of positions,
  read at an index). The three frames are the programs' generated frame theorems and the reference's run with its
  result dropped; `preserves` is trivial: the idealization rewrote nothing.
-/
import proofs.«102609_j84756884619350_1_alg».proof.Defs
import proofs.«102609_j84756884619350_1_alg».proof.Proof.Gen.Kernel
import proofs.«102609_j84756884619350_1_alg».proof.Proof.Gen.Kernel.Frame
import proofs.«102609_j84756884619350_1_alg».proof.Proof.Gen.KernelIdeal
import proofs.«102609_j84756884619350_1_alg».proof.Proof.Gen.KernelIdeal.Frame
import proofs.«102609_j84756884619350_1_alg».proof.Proof.Gen.ReferenceIdeal
import proofs.«102609_j84756884619350_1_alg».proof.Proof.Gen.Pre_finite_inputs
import proofs.«102609_j84756884619350_1_alg».proof.Proof.KernelValue
import proofs.«102609_j84756884619350_1_alg».proof.Proof.RefOut
import proofs.«102609_j84756884619350_1_alg».proof.Proof.RefValue
import Idealize.ShloMosaic.Adequacy
import Idealize.ShloMosaic.Init

noncomputable section

namespace Cert.Proof

open Idealize.ShloMosaic Idealize.SL.Sem

/-- The kernel as printed runs and leaves its arguments: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the extended reals both programs end with the result array at `G` of the argument arrays: the kernel by its
    blocks, the reference by its composition read index by index; the arguments agree, so the results do. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq_G _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
